-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S256x64x4 : Shape := ⟨3, ![256, 64, 4]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S256x64x4 : S_.BroadcastsInDim S256x64x4 (![] : Fin 0 → Fin S256x64x4.rank)
  reducesTo_S256x64x4_S_d0_1_2 : S256x64x4.ReducesTo [0, 1, 2] S_

variable [Facts]

def fn {F : FTy → Type} [FloatOps F] (main_arg0 : FVec F S4096x64 .f32) (main_arg1 : FVec F S256x64x4 .f32) (main_arg2 : FVec F S256x64x4 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S256x64x4 .f32 := Host.absf main_arg1
  let main_cst_0 : FVec F S_ .f32 := constant S_ .f32 0x7F800000#32
  let main_v5 : FVec F S256x64x4 .f32 := broadcastInDim S256x64x4 ![] bcast_S_S256x64x4 main_cst_0
  let main_v6 : IVec S256x64x4 1 := cmpf .olt main_v4 main_v5
  let main_c_1 : IVec S_ 1 := constantI S_ 1 1#1
  let main_v7 : IVec S_ 1 := (fun x v => Host.reduce IntOp.andi x v reducesTo_S256x64x4_S_d0_1_2 h_S_) main_v6 main_c_1
  let main_v8 : IVec S_ 1 := andi main_v3 main_v7
  let main_v9 : FVec F S256x64x4 .f32 := Host.absf main_arg2
  let main_cst_2 : FVec F S_ .f32 := constant S_ .f32 0x7F800000#32
  let main_v10 : FVec F S256x64x4 .f32 := broadcastInDim S256x64x4 ![] bcast_S_S256x64x4 main_cst_2
  let main_v11 : IVec S256x64x4 1 := cmpf .olt main_v9 main_v10
  let main_c_3 : IVec S_ 1 := constantI S_ 1 1#1
  let main_v12 : IVec S_ 1 := (fun x v => Host.reduce IntOp.andi x v reducesTo_S256x64x4_S_d0_1_2 h_S_) main_v11 main_c_3
  let main_v13 : IVec S_ 1 := andi main_v8 main_v12
  main_v13
-- ==== Kernel.lean ====
abbrev S4096x64 : Shape := ⟨2, ![4096, 64]⟩
abbrev S256x64x4 : Shape := ⟨3, ![256, 64, 4]⟩
abbrev S4x256x64 : Shape := ⟨3, ![4, 256, 64]⟩
abbrev S16x64 : Shape := ⟨2, ![16, 64]⟩
abbrev S1x256x64 : Shape := ⟨3, ![1, 256, 64]⟩
abbrev S256x64 : Shape := ⟨2, ![256, 64]⟩
abbrev S256x1x64 : Shape := ⟨3, ![256, 1, 64]⟩
abbrev S1x16x64 : Shape := ⟨3, ![1, 16, 64]⟩
abbrev S256x16x64 : Shape := ⟨3, ![256, 16, 64]⟩
abbrev S256x16 : Shape := ⟨2, ![256, 16]⟩
abbrev S256x16x1 : Shape := ⟨3, ![256, 16, 1]⟩

abbrev nBuf : Space → Nat
  | .hbm => 6
  | .vmem => 6
  | .smem => 0
  | _ => 0

abbrev bufTy : (tb : Table) → Fin (tcTables nBuf tb) → BufTy
  | .hbm, ⟨0, _⟩ => ⟨S4096x64, .f32⟩
  | .hbm, ⟨1, _⟩ => ⟨S256x64x4, .f32⟩
  | .hbm, ⟨2, _⟩ => ⟨S256x64x4, .f32⟩
  | .hbm, ⟨3, _⟩ => ⟨S4x256x64, .f32⟩
  | .hbm, ⟨4, _⟩ => ⟨S4x256x64, .f32⟩
  | .hbm, ⟨5, _⟩ => ⟨S4096x64, .f32⟩
  | .local _ .vmem, ⟨0, _⟩ => ⟨S16x64, .f32⟩
  | .local _ .vmem, ⟨1, _⟩ => ⟨S16x64, .f32⟩
  | .local _ .vmem, ⟨2, _⟩ => ⟨S4x256x64, .f32⟩
  | .local _ .vmem, ⟨3, _⟩ => ⟨S4x256x64, .f32⟩
  | .local _ .vmem, ⟨4, _⟩ => ⟨S16x64, .f32⟩
  | .local _ .vmem, ⟨5, _⟩ => ⟨S16x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S256x64x4_S4x256x64_2_0_1 : S256x64x4.Transposes [2, 0, 1] S4x256x64
  inb_S16x64_S16x64_0_0 : ∀ a, (![0, 0] : Fin 2 → Nat) a + S16x64.size a ≤ S16x64.size a
  h_S16x64 : 0 < S16x64.numel
  inb_S4x256x64_S4x256x64_0_0_0 : ∀ a, (![0, 0, 0] : Fin 3 → Nat) a + S4x256x64.size a ≤ S4x256x64.size a
  h_S4x256x64 : 0 < S4x256x64.numel
  shapeCasts_S4x256x64_S4x256x64 : S4x256x64.ShapeCasts S4x256x64
  slices_S4x256x64_o0_0_0_S1x256x64 : S4x256x64.Slices ![0, 0, 0] S1x256x64
  shapeCasts_S1x256x64_S256x64 : S1x256x64.ShapeCasts S256x64
  shapeCasts_S256x64_S256x1x64 : S256x64.ShapeCasts S256x1x64
  slices_S4x256x64_o1_0_0_S1x256x64 : S4x256x64.Slices ![1, 0, 0] S1x256x64
  slices_S4x256x64_o2_0_0_S1x256x64 : S4x256x64.Slices ![2, 0, 0] S1x256x64
  slices_S4x256x64_o3_0_0_S1x256x64 : S4x256x64.Slices ![3, 0, 0] S1x256x64
  shapeCasts_S16x64_S1x16x64 : S16x64.ShapeCasts S1x16x64
  broadcasts_S1x16x64_S256x16x64 : S1x16x64.Broadcasts S256x16x64
  broadcasts_S256x1x64_S256x16x64 : S256x1x64.Broadcasts S256x16x64
  reduces_S256x16x64_S256x16 : S256x16x64.Reduces [2] S256x16
  shapeCasts_S256x16_S256x16x1 : S256x16.ShapeCasts S256x16x1
  broadcasts_S256x16x1_S256x16x64 : S256x16x1.Broadcasts S256x16x64
  reduces_S256x16x64_S16x64 : S256x16x64.Reduces [0] S16x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64.size a ≤ S4096x64.size a
  hwx0_0 : ∀ i : grid0.Coords, EltTy.bits .f32 = 32 ∨ (Rect.block (s := S4096x64) S16x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256x64.size a ≤ S4x256x64.size a
  hwx0_1 : ∀ i : grid0.Coords, EltTy.bits .f32 = 32 ∨ (Rect.block (s := S4x256x64) S4x256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x256x64.size a ≤ S4x256x64.size a
  hwx0_2 : ∀ i : grid0.Coords, EltTy.bits .f32 = 32 ∨ (Rect.block (s := S4x256x64) S4x256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S4096x64.size a
  hwx0_3 : ∀ i : grid0.Coords, EltTy.bits .f32 = 32 ∨ (Rect.block (s := S4096x64) S16x64.size (cc0_transform_3 i) (hinb0_3 i)).WholeWords (EltTy.packing .f32)

variable [Facts₀]

abbrev win0_0 : Pipeline.Window sig grid0 :=
  Pipeline.Window.ofSpec (Memref.whole main_arg0) S16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x64 : Shape := ⟨2, ![4096, 64]⟩
abbrev S256x64x4 : Shape := ⟨3, ![256, 64, 4]⟩
abbrev S256x64x1 : Shape := ⟨3, ![256, 64, 1]⟩
abbrev S256x64 : Shape := ⟨2, ![256, 64]⟩
abbrev S256x1x64 : Shape := ⟨3, ![256, 1, 64]⟩
abbrev S1x4096x64 : Shape := ⟨3, ![1, 4096, 64]⟩
abbrev S256x4096x64 : Shape := ⟨3, ![256, 4096, 64]⟩
abbrev S_ : Shape := ⟨0, ![]⟩
abbrev S256x4096 : Shape := ⟨2, ![256, 4096]⟩
abbrev S4096x256 : Shape := ⟨2, ![4096, 256]⟩
abbrev S4096x256x1 : Shape := ⟨3, ![4096, 256, 1]⟩
abbrev S1x256x64 : Shape := ⟨3, ![1, 256, 64]⟩
abbrev S4096x256x64 : Shape := ⟨3, ![4096, 256, 64]⟩

abbrev nBuf : Space → Nat
  | .hbm => 154
  | .vmem => 0
  | .smem => 0
  | _ => 0

abbrev hbmTy0_0 (i : Nat) : BufTy := match i % 128 with
  | 0 => ⟨S4096x64, .f32⟩
  | 1 => ⟨S256x64x4, .f32⟩
  | 2 => ⟨S256x64x4, .f32⟩
  | 3 => ⟨S256x64x1, .f32⟩
  | 4 => ⟨S256x64, .f32⟩
  | 5 => ⟨S256x1x64, .f32⟩
  | 6 => ⟨S256x64x1, .f32⟩
  | 7 => ⟨S256x64, .f32⟩
  | 8 => ⟨S256x1x64, .f32⟩
  | 9 => ⟨S256x64x1, .f32⟩
  | 10 => ⟨S256x64, .f32⟩
  | 11 => ⟨S256x1x64, .f32⟩
  | 12 => ⟨S256x64x1, .f32⟩
  | 13 => ⟨S256x64, .f32⟩
  | 14 => ⟨S256x1x64, .f32⟩
  | 15 => ⟨S1x4096x64, .f32⟩
  | 16 => ⟨S256x4096x64, .f32⟩
  | 17 => ⟨S256x4096x64, .f32⟩
  | 18 => ⟨S256x4096x64, .f32⟩
  | 19 => ⟨S256x1x64, .f32⟩
  | 20 => ⟨S_, .f32⟩
  | 21 => ⟨S256x1x64, .f32⟩
  | 22 => ⟨S256x1x64, .f32⟩
  | 23 => ⟨S256x4096x64, .f32⟩
  | 24 => ⟨S256x4096x64, .f32⟩
  | 25 => ⟨S256x4096x64, .f32⟩
  | 26 => ⟨S256x4096x64, .f32⟩
  | 27 => ⟨S256x4096x64, .f32⟩
  | 28 => ⟨S256x1x64, .f32⟩
  | 29 => ⟨S_, .f32⟩
  | 30 => ⟨S256x1x64, .f32⟩
  | 31 => ⟨S256x1x64, .f32⟩
  | 32 => ⟨S256x4096x64, .f32⟩
  | 33 => ⟨S256x4096x64, .f32⟩
  | 34 => ⟨S256x4096x64, .f32⟩
  | 35 => ⟨S256x4096x64, .f32⟩
  | 36 => ⟨S256x4096x64, .f32⟩
  | 37 => ⟨S_, .f32⟩
  | 38 => ⟨S256x4096x64, .f32⟩
  | 39 => ⟨S256x4096x64, .f32⟩
  | 40 => ⟨S256x4096x64, .f32⟩
  | 41 => ⟨S256x4096x64, .i1⟩
  | 42 => ⟨S256x4096x64, .f32⟩
  | 43 => ⟨S256x4096x64, .f32⟩
  | 44 => ⟨S256x4096x64, .i1⟩
  | 45 => ⟨S256x4096x64, .i1⟩
  | 46 => ⟨S256x4096x64, .f32⟩
  | 47 => ⟨S256x4096x64, .f32⟩
  | 48 => ⟨S256x4096x64, .f32⟩
  | 49 => ⟨S256x4096x64, .i1⟩
  | 50 => ⟨S256x4096x64, .f32⟩
  | 51 => ⟨S256x4096x64, .f32⟩
  | 52 => ⟨S256x4096x64, .i1⟩
  | 53 => ⟨S256x4096x64, .i1⟩
  | 54 => ⟨S_, .f32⟩
  | 55 => ⟨S_, .f32⟩
  | 56 => ⟨S256x4096x64, .f32⟩
  | 57 => ⟨S256x4096x64, .f32⟩
  | 58 => ⟨S256x4096x64, .f32⟩
  | 59 => ⟨S256x4096x64, .f32⟩
  | 60 => ⟨S256x4096x64, .i1⟩
  | 61 => ⟨S256x4096x64, .f32⟩
  | 62 => ⟨S256x4096x64, .f32⟩
  | 63 => ⟨S256x4096x64, .i1⟩
  | 64 => ⟨S256x4096x64, .i1⟩
  | 65 => ⟨S256x4096x64, .f32⟩
  | 66 => ⟨S_, .f32⟩
  | 67 => ⟨S256x4096, .f32⟩
  | 68 => ⟨S4096x256, .f32⟩
  | 69 => ⟨S4096x256x1, .f32⟩
  | 70 => ⟨S256x64x1, .f32⟩
  | 71 => ⟨S256x64, .f32⟩
  | 72 => ⟨S1x256x64, .f32⟩
  | 73 => ⟨S256x64x1, .f32⟩
  | 74 => ⟨S256x64, .f32⟩
  | 75 => ⟨S1x256x64, .f32⟩
  | 76 => ⟨S256x64x1, .f32⟩
  | 77 => ⟨S256x64, .f32⟩
  | 78 => ⟨S1x256x64, .f32⟩
  | 79 => ⟨S256x64x1, .f32⟩
  | 80 => ⟨S256x64, .f32⟩
  | 81 => ⟨S1x256x64, .f32⟩
  | 82 => ⟨S_, .f32⟩
  | 83 => ⟨S4096x256x1, .f32⟩
  | 84 => ⟨S4096x256x1, .f32⟩
  | 85 => ⟨S1x256x64, .f32⟩
  | 86 => ⟨S1x256x64, .f32⟩
  | 87 => ⟨S1x256x64, .f32⟩
  | 88 => ⟨S4096x256x64, .f32⟩
  | 89 => ⟨S4096x256x64, .f32⟩
  | 90 => ⟨S4096x256x64, .f32⟩
  | 91 => ⟨S_, .f32⟩
  | 92 => ⟨S4096x256x1, .f32⟩
  | 93 => ⟨S4096x256x1, .f32⟩
  | 94 => ⟨S4096x256x64, .f32⟩
  | 95 => ⟨S4096x256x64, .f32⟩
  | 96 => ⟨S4096x256x1, .f32⟩
  | 97 => ⟨S_, .f32⟩
  | 98 => ⟨S4096x256x1, .f32⟩
  | 99 => ⟨S4096x256x1, .f32⟩
  | 100 => ⟨S1x256x64, .f32⟩
  | 101 => ⟨S1x256x64, .f32⟩
  | 102 => ⟨S1x256x64, .f32⟩
  | 103 => ⟨S4096x256x64, .f32⟩
  | 104 => ⟨S4096x256x64, .f32⟩
  | 105 => ⟨S4096x256x64, .f32⟩
  | 106 => ⟨S4096x256x1, .f32⟩
  | 107 => ⟨S4096x256x1, .f32⟩
  | 108 => ⟨S1x256x64, .f32⟩
  | 109 => ⟨S1x256x64, .f32⟩
  | 110 => ⟨S1x256x64, .f32⟩
  | 111 => ⟨S4096x256x64, .f32⟩
  | 112 => ⟨S4096x256x64, .f32⟩
  | 113 => ⟨S4096x256x64, .f32⟩
  | 114 => ⟨S1x256x64, .f32⟩
  | 115 => ⟨S1x256x64, .f32⟩
  | 116 => ⟨S1x256x64, .f32⟩
  | 117 => ⟨S4096x256x64, .f32⟩
  | 118 => ⟨S4096x256x64, .f32⟩
  | 119 => ⟨S4096x256x64, .f32⟩
  | 120 => ⟨S4096x256x64, .f32⟩
  | 121 => ⟨S_, .f32⟩
  | 122 => ⟨S4096x256x1, .f32⟩
  | 123 => ⟨S4096x256x1, .f32⟩
  | 124 => ⟨S1x256x64, .f32⟩
  | 125 => ⟨S4096x256x64, .f32⟩
  | 126 => ⟨S4096x256x64, .f32⟩
  | 127 => ⟨S4096x256x64, .f32⟩
  | _ => ⟨S4096x64, .f32⟩

abbrev hbmTy0_1 (i : Nat) : BufTy := match i % 128 with
  | 0 => ⟨S4096x256x1, .f32⟩
  | 1 => ⟨S1x256x64, .f32⟩
  | 2 => ⟨S1x256x64, .f32⟩
  | 3 => ⟨S1x256x64, .f32⟩
  | 4 => ⟨S4096x256x64, .f32⟩
  | 5 => ⟨S4096x256x64, .f32⟩
  | 6 => ⟨S4096x256x64, .f32⟩
  | 7 => ⟨S4096x256x64, .f32⟩
  | 8 => ⟨S_, .f32⟩
  | 9 => ⟨S4096x256x64, .f32⟩
  | 10 => ⟨S4096x256x64, .f32⟩
  | 11 => ⟨S_, .f32⟩
  | 12 => ⟨S4096x64, .f32⟩
  | 13 => ⟨S_, .f32⟩
  | 14 => ⟨S4096x64, .f32⟩
  | 15 => ⟨S_, .f32⟩
  | 16 => ⟨S4096x64, .f32⟩
  | 17 => ⟨S4096x64, .i1⟩
  | 18 => ⟨S4096x64, .f32⟩
  | 19 => ⟨S_, .f32⟩
  | 20 => ⟨S_, .f32⟩
  | 21 => ⟨S4096x64, .f32⟩
  | 22 => ⟨S4096x64, .f32⟩
  | 23 => ⟨S_, .f32⟩
  | 24 => ⟨S4096x64, .f32⟩
  | 25 => ⟨S4096x64, .f32⟩
  | _ => ⟨S4096x64, .f32⟩

abbrev hbmTy (i : Nat) : BufTy := match i / 128 with
  | 0 => hbmTy0_0 i
  | 1 => hbmTy0_1 i
  | _ => ⟨S4096x64, .f32⟩

abbrev bufTy : (tb : Table) → Fin (tcTables nBuf tb) → BufTy
  | .hbm, ⟨i, _⟩ => hbmTy i
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_cst_2 : Ref sig .tc := ⟨.hbm, 54, rfl⟩
abbrev main_call1_v0 : Ref sig .tc := ⟨.hbm, 55, rfl⟩
abbrev main_call1_v1 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_3 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_cst_4 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_cst_5 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_cst_6 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_cst_7 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_cst_8 : Ref sig .tc := ⟨.hbm, 136, rfl⟩
abbrev main_v122 : Ref sig .tc := ⟨.hbm, 137, rfl⟩
abbrev main_v123 : Ref sig .tc := ⟨.hbm, 138, rfl⟩
abbrev main_cst_9 : Ref sig .tc := ⟨.hbm, 139, rfl⟩
abbrev main_v124 : Ref sig .tc := ⟨.hbm, 140, rfl⟩
abbrev main_cst_10 : Ref sig .tc := ⟨.hbm, 141, rfl⟩
abbrev main_v125 : Ref sig .tc := ⟨.hbm, 142, rfl⟩
abbrev main_cst_11 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_cst_12 : Ref sig .tc := ⟨.hbm, 147, rfl⟩
abbrev main_call3_v0 : Ref sig .tc := ⟨.hbm, 148, rfl⟩
abbrev main_call3_v1 : Ref sig .tc := ⟨.hbm, 149, rfl⟩
abbrev main_v129 : Ref sig .tc := ⟨.hbm, 150, rfl⟩
abbrev main_cst_13 : Ref sig .tc := ⟨.hbm, 151, rfl⟩
abbrev main_v130 : Ref sig .tc := ⟨.hbm, 152, rfl⟩
abbrev main_v131 : Ref sig .tc := ⟨.hbm, 153, rfl⟩

abbrev nD : Nat := 1
abbrev τ : Topo := Topo.v7x

variable {F : FTy → Type} [FloatOps F]

class Facts₀ : Prop where
  slices_S256x64x4_S256x64x1_0_0_0 : S256x64x4.Slices ![0, 0, 0] S256x64x1
  shapeCasts_S256x64x1_S256x64 : S256x64x1.ShapeCasts S256x64
  bcast_S256x64_S256x1x64_0_2 : S256x64.BroadcastsInDim S256x1x64 (![0, 2] : Fin 2 → Fin S256x1x64.rank)
  slices_S256x64x4_S256x64x1_0_0_1 : S256x64x4.Slices ![0, 0, 1] S256x64x1
  slices_S256x64x4_S256x64x1_0_0_2 : S256x64x4.Slices ![0, 0, 2] S256x64x1
  slices_S256x64x4_S256x64x1_0_0_3 : S256x64x4.Slices ![0, 0, 3] S256x64x1
  bcast_S4096x64_S1x4096x64_1_2 : S4096x64.BroadcastsInDim S1x4096x64 (![1, 2] : Fin 2 → Fin S1x4096x64.rank)
  bcast_S1x4096x64_S256x4096x64_0_1_2 : S1x4096x64.BroadcastsInDim S256x4096x64 (![0, 1, 2] : Fin 3 → Fin S256x4096x64.rank)
  bcast_S256x1x64_S256x4096x64_0_1_2 : S256x1x64.BroadcastsInDim S256x4096x64 (![0, 1, 2] : Fin 3 → Fin S256x4096x64.rank)
  bcast_S_S256x1x64 : S_.BroadcastsInDim S256x1x64 (![] : Fin 0 → Fin S256x1x64.rank)
  bcast_S_S256x4096x64 : S_.BroadcastsInDim S256x4096x64 (![] : Fin 0 → Fin S256x4096x64.rank)
  reducesTo_S256x4096x64_S256x4096_d2 : S256x4096x64.ReducesTo [2] S256x4096
  h_S_ : 0 < S_.numel
  transposes_S256x4096_S4096x256_1_0 : S256x4096.Transposes [1, 0] S4096x256
  bcast_S4096x256_S4096x256x1_0_1 : S4096x256.BroadcastsInDim S4096x256x1 (![0, 1] : Fin 2 → Fin S4096x256x1.rank)
  bcast_S256x64_S1x256x64_1_2 : S256x64.BroadcastsInDim S1x256x64 (![1, 2] : Fin 2 → Fin S1x256x64.rank)
  bcast_S_S4096x256x1 : S_.BroadcastsInDim S4096x256x1 (![] : Fin 0 → Fin S4096x256x1.rank)
  bcast_S4096x256x1_S4096x256x64_0_1_2 : S4096x256x1.BroadcastsInDim S4096x256x64 (![0, 1, 2] : Fin 3 → Fin S4096x256x64.rank)
  bcast_S1x256x64_S4096x256x64_0_1_2 : S1x256x64.BroadcastsInDim S4096x256x64 (![0, 1, 2] : Fin 3 → Fin S4096x256x64.rank)
  bcast_S_S4096x256x64 : S_.BroadcastsInDim S4096x256x64 (![] : Fin 0 → Fin S4096x256x64.rank)
  reducesTo_S4096x256x64_S4096x64_d1 : S4096x256x64.ReducesTo [1] S4096x64
  bcast_S_S4096x64 : S_.BroadcastsInDim S4096x64 (![] : Fin 0 → Fin S4096x64.rank)

variable [Facts₀]

class Facts : Prop extends Facts₀ where

variable [Facts]
-- ==== Proof.Spec.lean ====
/-
  The fuzzy rule base as ONE function of its three argument arrays, over the extended reals.

  A rule n has, per input feature j, a trapezoid with breakpoints a ≤ b ≤ c ≤ d (the last axis of the antecedent
  array) and, per output feature o, a consequent trapezoid A, B, C, D. For a batch row with features x the rule
  fires with strength w = min over j of the trapezoid's membership of x j; the output at o is

      ( Σ_n num(w_n, A, B, C, D) / Σ_n den(w_n, A, B, C, D)   if the denominator sum is not 0, else 0 ) / 3,

  with num and den the cubic and quadratic polynomials in w below. Every operation is the ideal reading's
  (exact on the extended reals, a comparison a bit, a choice by that bit), written with the same words the two
  programs use, so that each program's element meets this text operation for operation.
-/
import Idealize.ShloMosaic.PureOps.Ideal
import Idealize.ShloMosaic.PureOps.Ideal.Laws
import Idealize.ShloMosaic.Lib.ValueIdx

noncomputable section

open scoped BigOperators

namespace Cert.Fuzzy

open Idealize.ShloMosaic Idealize.ShloMosaic.ValueIdx

/-- The extended reals: what an f32 is in the ideal reading. -/
abbrev R : Type := Ideal .f32

/-- The literal f32 words of both programs, as extended reals: 1e-8 (rounded to f32), 0, 1, 2, 3, the f32 machine
    epsilon 2⁻²³, and +∞. The same word stands on both sides, so none is ever evaluated. -/
abbrev tiny : R := FloatOps.ofBits (F := Ideal) .f32 0x322BCC77#32
abbrev zero : R := FloatOps.ofBits (F := Ideal) .f32 0x00000000#32
abbrev one : R := FloatOps.ofBits (F := Ideal) .f32 0x3F800000#32
abbrev two : R := FloatOps.ofBits (F := Ideal) .f32 0x40000000#32
abbrev three : R := FloatOps.ofBits (F := Ideal) .f32 0x40400000#32
abbrev ulp : R := FloatOps.ofBits (F := Ideal) .f32 0x34000000#32
abbrev top : R := FloatOps.ofBits (F := Ideal) .f32 0x7F800000#32

/-- Membership of `x` in the trapezoid a, b, c, d: the rising edge (x − a)/(b − a + 1e-8) strictly between a and b,
    one on [b, c], the falling edge (d − x)/(d − c + 1e-8) strictly between c and d, zero elsewhere; where two
    conditions hold the later choice wins, as in both programs. -/
def trap (x a b c d : R) : R :=
  Scalar.select (IntOp.andi (FloatOps.cmpf .olt c x) (FloatOps.cmpf .olt x d))
    (FloatOps.divf (FloatOps.subf d x) (FloatOps.addf (FloatOps.subf d c) tiny))
    (Scalar.select (IntOp.andi (FloatOps.cmpf .ole b x) (FloatOps.cmpf .ole x c)) one
      (Scalar.select (IntOp.andi (FloatOps.cmpf .olt a x) (FloatOps.cmpf .olt x b))
        (FloatOps.divf (FloatOps.subf x a) (FloatOps.addf (FloatOps.subf b a) tiny)) zero))

/-- A rule's firing strength on a row: the least membership over the 64 features, from +∞. -/
def fire (x : Fin 64 → R) (q : Fin 64 → Fin 4 → R) : R :=
  (Finset.univ : Finset (Fin 64)).fold FloatOps.minimumf top (fun j => trap (x j) (q j 0) (q j 1) (q j 2) (q j 3))

/-- The numerator's three terms: 3w(D² − A²)(1 − w) + 3w²(CD − AB) + w³(C − D + A − B)(C − D − A + B). -/
def num (w A B C D : R) : R :=
  FloatOps.addf
    (FloatOps.addf
      (FloatOps.mulf (FloatOps.mulf (FloatOps.mulf three w) (FloatOps.subf (FloatOps.mulf D D) (FloatOps.mulf A A)))
        (FloatOps.subf one w))
      (FloatOps.mulf (FloatOps.mulf three (FloatOps.mulf w w)) (FloatOps.subf (FloatOps.mulf C D) (FloatOps.mulf A B))))
    (FloatOps.mulf
      (FloatOps.mulf (FloatOps.mulf (FloatOps.mulf w w) w) (FloatOps.subf (FloatOps.addf (FloatOps.subf C D) A) B))
      (FloatOps.addf (FloatOps.subf (FloatOps.subf C D) A) B))

/-- The denominator: 2w(D − A) + w²(C + A − D − B) + 2⁻²³. -/
def den (w A B C D : R) : R :=
  FloatOps.addf
    (FloatOps.addf (FloatOps.mulf (FloatOps.mulf two w) (FloatOps.subf D A))
      (FloatOps.mulf (FloatOps.mulf w w) (FloatOps.subf (FloatOps.subf (FloatOps.addf C A) D) B)))
    ulp

/-- One output element from the 256 rules' strengths `w` and consequents `p`: the guarded quotient of the two sums,
    over three. -/
def outOf (w : Fin 256 → R) (p : Fin 256 → Fin 4 → R) : R :=
  FloatOps.divf
    (Scalar.select (FloatOps.cmpf .one (∑ n : Fin 256, den (w n) (p n 0) (p n 1) (p n 2) (p n 3)) zero)
      (FloatOps.divf (∑ n : Fin 256, num (w n) (p n 0) (p n 1) (p n 2) (p n 3))
        (∑ n : Fin 256, den (w n) (p n 0) (p n 1) (p n 2) (p n 3)))
      zero)
    three

/-- The output at batch row `r` and output feature `o`, from the inputs `X : [4096, 64]`, the antecedents
    `An : [256, 64, 4]` and the consequents `Co : [256, 64, 4]`. -/
def outAt (X : (⟨2, ![4096, 64]⟩ : Shape).Idx → R) (An Co : (⟨3, ![256, 64, 4]⟩ : Shape).Idx → R)
    (r : Fin 4096) (o : Fin 64) : R :=
  outOf (fun n => fire (fun j => X (ix2 r j)) (fun j k => An (ix3 n j k))) (fun n k => Co (ix3 n o k))

/-- The whole result array. -/
def G (X : (⟨2, ![4096, 64]⟩ : Shape).Idx → R) (An Co : (⟨3, ![256, 64, 4]⟩ : Shape).Idx → R) :
    (⟨2, ![4096, 64]⟩ : Shape).Idx → R :=
  fun i => outAt X An Co ⟨(i 0).val, (i 0).isLt⟩ ⟨(i 1).val, (i 1).isLt⟩

theorem G_ix2 (X : (⟨2, ![4096, 64]⟩ : Shape).Idx → R) (An Co : (⟨3, ![256, 64, 4]⟩ : Shape).Idx → R)
    (r : Fin 4096) (o : Fin 64) : G X An Co (ix2 r o) = outAt X An Co r o := rfl

/-- The kernel cubes the strength as w·(w·w), the reference as (w·w)·w: one product. -/
theorem cube_comm (w : R) : FloatOps.mulf w (FloatOps.mulf w w) = FloatOps.mulf (FloatOps.mulf w w) w :=
  mul_comm (G := EReal) w (w * w)

/-- The host's quotient and the kernel's are one operation on the extended reals. -/
theorem hostDivf_eq (x y : R) : FloatOps.hostDivf x y = FloatOps.divf x y := rfl

/-- "Not equal" reads the same ordered or unordered: the extended reals have no NaN. -/
theorem cmpf_une_eq (x y : R) : FloatOps.cmpf .une x y = FloatOps.cmpf .one x y := rfl

/-- The f32 zero word is the extended real 0, so a sum started from it is the sum. -/
theorem zero_add_sum (s : R) : (zero + s : R) = s := by
  show Ideal.ofBits .f32 0x00000000#32 + s = s
  rw [Ideal.ofBits_zero_f32, zero_add]

end Cert.Fuzzy

end
-- ==== Proof.Layout.lean ====
/-
  The kernel body's re-layings read at an index given by coordinates. The body keeps the four breakpoint planes of
  a transposed rule table [4, 256, 64] as [256, 1, 64] columns, a row block [16, 64] as [1, 16, 64], and a
  strength table [256, 16] as [256, 16, 1], and broadcasts all of them to [256, 16, 64]:

    plane k of the table, as a column, at (n, 0, j)     is the table at (k, n, j);
    a column [256, 1, 64] broadcast, at (n, r, j)        is the column at (n, 0, j);
    a row block [16, 64] as [1, 16, 64], at (0, r, j)    is the block at (r, j);
    a [1, 16, 64] array broadcast, at (n, r, j)          is the array at (0, r, j);
    a table [256, 16] as [256, 16, 1], at (n, r, 0)      is the table at (n, r);
    a [256, 16, 1] array broadcast, at (n, r, o)         is the array at (n, r, 0).

  The reference instead slices breakpoint k out of the last axis of the untransposed [256, 64, 4] table, flattens
  the slice and lays it as a [256, 1, 64] column or a [1, 256, 64] plane: at an index that is the table at
  (rule, feature, k).

  Each is the library's read-at-an-index lemma for the operation with the coordinates' arithmetic done.
-/
import Idealize.ShloMosaic.Lib.Pipeline.Value
import Idealize.ShloMosaic.Lib.ValueIdx

namespace Cert.Fuzzy

open Idealize.ShloMosaic Idealize.ShloMosaic.ValueIdx

variable {α : Type}

/-- Plane `k` of a [4, 256, 64] table, cut out as [1, 256, 64], flattened to [256, 64] and stood up as a
    [256, 1, 64] column, reads at (n, 0, j) the table at (k, n, j). -/
theorem plane_column (off : Fin 3 → Nat) (k : Fin 4) (h0 : off 0 = k.val) (h1 : off 1 = 0) (h2 : off 2 = 0)
    (v : (⟨3, ![4, 256, 64]⟩ : Shape).Idx → α)
    (hs : (⟨3, ![4, 256, 64]⟩ : Shape).Slices off ⟨3, ![1, 256, 64]⟩)
    (hc1 : (⟨3, ![1, 256, 64]⟩ : Shape).ShapeCasts ⟨2, ![256, 64]⟩)
    (hc2 : (⟨2, ![256, 64]⟩ : Shape).ShapeCasts ⟨3, ![256, 1, 64]⟩)
    (n : Fin 256) (u : Fin 1) (j : Fin 64) :
    shapeCast ⟨3, ![256, 1, 64]⟩ (shapeCast ⟨2, ![256, 64]⟩ (extractStridedSlice ⟨3, ![1, 256, 64]⟩ off v hs) hc1) hc2
      (ix3 n u j) = v (ix3 k n j) := by
  have hu : u.val = 0 := by have := u.isLt; omega
  refine (shapeCast_apply _ hc2 (ix3 n u j) (ix2 n j) ?_).trans ?_
  · rw [Shape.rowMajor_val_two, Shape.rowMajor_val_three]
    show n.val * 64 + j.val = (n.val * 1 + u.val) * 64 + j.val
    rw [hu]; omega
  refine (shapeCast_apply _ hc1 (ix2 n j) (ix3 (0 : Fin 1) n j) ?_).trans ?_
  · rw [Shape.rowMajor_val_two, Shape.rowMajor_val_three]
    show ((0 : Fin 1).val * 256 + n.val) * 64 + j.val = n.val * 64 + j.val
    show (0 * 256 + n.val) * 64 + j.val = n.val * 64 + j.val
    omega
  exact extractStridedSlice_apply off v hs (ix3 (0 : Fin 1) n j) (ix3 k n j) (fun a => match a with
    | ⟨0, _⟩ => by show k.val = off 0 + 0; omega
    | ⟨1, _⟩ => by show n.val = off 1 + n.val; omega
    | ⟨2, _⟩ => by show j.val = off 2 + j.val; omega)

/-- A [256, 1, 64] column broadcast over the 16 rows reads at (n, r, j) the column at (n, 0, j). -/
theorem column_bcast (v : (⟨3, ![256, 1, 64]⟩ : Shape).Idx → α)
    (h : (⟨3, ![256, 1, 64]⟩ : Shape).Broadcasts ⟨3, ![256, 16, 64]⟩) (n : Fin 256) (r : Fin 16) (j : Fin 64) :
    broadcastTo ⟨3, ![256, 16, 64]⟩ v h (ix3 n r j) = v (ix3 n (0 : Fin 1) j) :=
  broadcastTo_apply v h (ix3 n r j) (ix3 n (0 : Fin 1) j) (fun a => match a with
    | ⟨0, _⟩ => by show n.val = if (256 : Nat) = 1 then 0 else n.val; rw [if_neg (by decide)]
    | ⟨1, _⟩ => by show (0 : Fin 1).val = if (1 : Nat) = 1 then 0 else r.val; rw [if_pos rfl]; rfl
    | ⟨2, _⟩ => by show j.val = if (64 : Nat) = 1 then 0 else j.val; rw [if_neg (by decide)])

/-- A [16, 64] row block given a leading unit axis reads at (0, r, j) the block at (r, j). -/
theorem lead_cast (x : (⟨2, ![16, 64]⟩ : Shape).Idx → α)
    (hc : (⟨2, ![16, 64]⟩ : Shape).ShapeCasts ⟨3, ![1, 16, 64]⟩) (u : Fin 1) (r : Fin 16) (j : Fin 64) :
    shapeCast ⟨3, ![1, 16, 64]⟩ x hc (ix3 u r j) = x (ix2 r j) := by
  have hu : u.val = 0 := by have := u.isLt; omega
  refine shapeCast_apply x hc (ix3 u r j) (ix2 r j) ?_
  rw [Shape.rowMajor_val_two, Shape.rowMajor_val_three]
  show r.val * 64 + j.val = (u.val * 16 + r.val) * 64 + j.val
  rw [hu]; omega

/-- A [1, 16, 64] array broadcast over the 256 rules reads at (n, r, j) the array at (0, r, j). -/
theorem lead_bcast (v : (⟨3, ![1, 16, 64]⟩ : Shape).Idx → α)
    (h : (⟨3, ![1, 16, 64]⟩ : Shape).Broadcasts ⟨3, ![256, 16, 64]⟩) (n : Fin 256) (r : Fin 16) (j : Fin 64) :
    broadcastTo ⟨3, ![256, 16, 64]⟩ v h (ix3 n r j) = v (ix3 (0 : Fin 1) r j) :=
  broadcastTo_apply v h (ix3 n r j) (ix3 (0 : Fin 1) r j) (fun a => match a with
    | ⟨0, _⟩ => by show (0 : Fin 1).val = if (1 : Nat) = 1 then 0 else n.val; rw [if_pos rfl]; rfl
    | ⟨1, _⟩ => by show r.val = if (16 : Nat) = 1 then 0 else r.val; rw [if_neg (by decide)]
    | ⟨2, _⟩ => by show j.val = if (64 : Nat) = 1 then 0 else j.val; rw [if_neg (by decide)])

/-- A [16, 64] row block taken as [1, 16, 64] and broadcast over the 256 rules reads at (n, r, j) the block at (r, j). -/
theorem rows_bcast (x : (⟨2, ![16, 64]⟩ : Shape).Idx → α)
    (hc : (⟨2, ![16, 64]⟩ : Shape).ShapeCasts ⟨3, ![1, 16, 64]⟩)
    (h : (⟨3, ![1, 16, 64]⟩ : Shape).Broadcasts ⟨3, ![256, 16, 64]⟩) (n : Fin 256) (r : Fin 16) (j : Fin 64) :
    broadcastTo ⟨3, ![256, 16, 64]⟩ (shapeCast ⟨3, ![1, 16, 64]⟩ x hc) h (ix3 n r j) = x (ix2 r j) := by
  refine (broadcastTo_apply _ h (ix3 n r j) (ix3 (0 : Fin 1) r j) (fun a => match a with
    | ⟨0, _⟩ => by show (0 : Fin 1).val = if (1 : Nat) = 1 then 0 else n.val; rw [if_pos rfl]; rfl
    | ⟨1, _⟩ => by show r.val = if (16 : Nat) = 1 then 0 else r.val; rw [if_neg (by decide)]
    | ⟨2, _⟩ => by show j.val = if (64 : Nat) = 1 then 0 else j.val; rw [if_neg (by decide)])).trans ?_
  refine shapeCast_apply x hc (ix3 (0 : Fin 1) r j) (ix2 r j) ?_
  rw [Shape.rowMajor_val_two, Shape.rowMajor_val_three]
  show r.val * 64 + j.val = ((0 : Fin 1).val * 16 + r.val) * 64 + j.val
  show r.val * 64 + j.val = (0 * 16 + r.val) * 64 + j.val
  omega

/-- A [256, 16] table given a trailing unit axis reads at (n, r, 0) the table at (n, r). -/
theorem keepdim_cast (v : (⟨2, ![256, 16]⟩ : Shape).Idx → α)
    (hc : (⟨2, ![256, 16]⟩ : Shape).ShapeCasts ⟨3, ![256, 16, 1]⟩) (n : Fin 256) (r : Fin 16) (u : Fin 1) :
    shapeCast ⟨3, ![256, 16, 1]⟩ v hc (ix3 n r u) = v (ix2 n r) := by
  have hu : u.val = 0 := by have := u.isLt; omega
  refine shapeCast_apply v hc (ix3 n r u) (ix2 n r) ?_
  rw [Shape.rowMajor_val_two, Shape.rowMajor_val_three]
  show n.val * 16 + r.val = (n.val * 16 + r.val) * 1 + u.val
  rw [hu]; omega

/-- A [256, 16, 1] array broadcast over the 64 output features reads at (n, r, o) the array at (n, r, 0). -/
theorem keepdim_bcast (v : (⟨3, ![256, 16, 1]⟩ : Shape).Idx → α)
    (h : (⟨3, ![256, 16, 1]⟩ : Shape).Broadcasts ⟨3, ![256, 16, 64]⟩) (n : Fin 256) (r : Fin 16) (o : Fin 64) :
    broadcastTo ⟨3, ![256, 16, 64]⟩ v h (ix3 n r o) = v (ix3 n r (0 : Fin 1)) :=
  broadcastTo_apply v h (ix3 n r o) (ix3 n r (0 : Fin 1)) (fun a => match a with
    | ⟨0, _⟩ => by show n.val = if (256 : Nat) = 1 then 0 else n.val; rw [if_neg (by decide)]
    | ⟨1, _⟩ => by show r.val = if (16 : Nat) = 1 then 0 else r.val; rw [if_neg (by decide)]
    | ⟨2, _⟩ => by show (0 : Fin 1).val = if (1 : Nat) = 1 then 0 else o.val; rw [if_pos rfl]; rfl)

/-! ## The reference's re-layings of a breakpoint: a slice of the last axis of a [256, 64, 4] table -/

/-- Breakpoint `k` of a [256, 64, 4] table, sliced out of the last axis, flattened to [256, 64] and laid as a
    [256, 1, 64] column, reads at `i` the table at (i 0, i 2, k). -/
theorem slice_column (off : Fin 3 → Nat) (k : Fin 4) (h0 : off 0 = 0) (h1 : off 1 = 0) (h2 : off 2 = k.val)
    (A : (⟨3, ![256, 64, 4]⟩ : Shape).Idx → α)
    (hs : (⟨3, ![256, 64, 4]⟩ : Shape).Slices off ⟨3, ![256, 64, 1]⟩)
    (hc : (⟨3, ![256, 64, 1]⟩ : Shape).ShapeCasts ⟨2, ![256, 64]⟩)
    (hb : (⟨2, ![256, 64]⟩ : Shape).BroadcastsInDim ⟨3, ![256, 1, 64]⟩ ![0, 2])
    (i : (⟨3, ![256, 1, 64]⟩ : Shape).Idx) :
    broadcastInDim ⟨3, ![256, 1, 64]⟩ ![0, 2] hb
        (shapeCast ⟨2, ![256, 64]⟩ (extractStridedSlice ⟨3, ![256, 64, 1]⟩ off A hs) hc) i
      = A (ix3 ⟨(i 0).val, (i 0).isLt⟩ ⟨(i 2).val, (i 2).isLt⟩ k) := by
  have q0 : (i 0).val < 256 := (i 0).isLt
  have q2 : (i 2).val < 64 := (i 2).isLt
  refine (broadcastInDim_apply _ hb _ i (ix2 ⟨(i 0).val, q0⟩ ⟨(i 2).val, q2⟩) (fun a => match a with
    | ⟨0, _⟩ => by show (i 0).val = if (256 : Nat) = 1 then 0 else (i 0).val; rw [if_neg (by decide)]
    | ⟨1, _⟩ => by show (i 2).val = if (64 : Nat) = 1 then 0 else (i 2).val; rw [if_neg (by decide)])).trans ?_
  refine (shapeCast_apply _ hc _ (ix3 ⟨(i 0).val, q0⟩ ⟨(i 2).val, q2⟩ (0 : Fin 1)) ?_).trans ?_
  · rw [Shape.rowMajor_val_two, Shape.rowMajor_val_three]
    show ((i 0).val * 64 + (i 2).val) * 1 + 0 = (i 0).val * 64 + (i 2).val
    omega
  exact extractStridedSlice_apply off A hs _ _ (fun a => match a with
    | ⟨0, _⟩ => by show (i 0).val = off 0 + (i 0).val; omega
    | ⟨1, _⟩ => by show (i 2).val = off 1 + (i 2).val; omega
    | ⟨2, _⟩ => by show k.val = off 2 + 0; omega)

/-- The same slice laid as a [1, 256, 64] plane reads at `i` the table at (i 1, i 2, k). -/
theorem slice_plane (off : Fin 3 → Nat) (k : Fin 4) (h0 : off 0 = 0) (h1 : off 1 = 0) (h2 : off 2 = k.val)
    (A : (⟨3, ![256, 64, 4]⟩ : Shape).Idx → α)
    (hs : (⟨3, ![256, 64, 4]⟩ : Shape).Slices off ⟨3, ![256, 64, 1]⟩)
    (hc : (⟨3, ![256, 64, 1]⟩ : Shape).ShapeCasts ⟨2, ![256, 64]⟩)
    (hb : (⟨2, ![256, 64]⟩ : Shape).BroadcastsInDim ⟨3, ![1, 256, 64]⟩ ![1, 2])
    (i : (⟨3, ![1, 256, 64]⟩ : Shape).Idx) :
    broadcastInDim ⟨3, ![1, 256, 64]⟩ ![1, 2] hb
        (shapeCast ⟨2, ![256, 64]⟩ (extractStridedSlice ⟨3, ![256, 64, 1]⟩ off A hs) hc) i
      = A (ix3 ⟨(i 1).val, (i 1).isLt⟩ ⟨(i 2).val, (i 2).isLt⟩ k) := by
  have q1 : (i 1).val < 256 := (i 1).isLt
  have q2 : (i 2).val < 64 := (i 2).isLt
  refine (broadcastInDim_apply _ hb _ i (ix2 ⟨(i 1).val, q1⟩ ⟨(i 2).val, q2⟩) (fun a => match a with
    | ⟨0, _⟩ => by show (i 1).val = if (256 : Nat) = 1 then 0 else (i 1).val; rw [if_neg (by decide)]
    | ⟨1, _⟩ => by show (i 2).val = if (64 : Nat) = 1 then 0 else (i 2).val; rw [if_neg (by decide)])).trans ?_
  refine (shapeCast_apply _ hc _ (ix3 ⟨(i 1).val, q1⟩ ⟨(i 2).val, q2⟩ (0 : Fin 1)) ?_).trans ?_
  · rw [Shape.rowMajor_val_two, Shape.rowMajor_val_three]
    show ((i 1).val * 64 + (i 2).val) * 1 + 0 = (i 1).val * 64 + (i 2).val
    omega
  exact extractStridedSlice_apply off A hs _ _ (fun a => match a with
    | ⟨0, _⟩ => by show (i 1).val = off 0 + (i 1).val; omega
    | ⟨1, _⟩ => by show (i 2).val = off 1 + (i 2).val; omega
    | ⟨2, _⟩ => by show k.val = off 2 + 0; omega)

end Cert.Fuzzy
-- ==== Proof.Reduce.lean ====
/-
  The kernel body's two reductions read at an index, over the extended reals: the least over the feature axis of a
  [256, 16, 64] array at (n, r) is the fold of `min` from +∞ over the 64 features, and the sum over the rule axis at
  (r, o) is the sum over the 256 rules. Both from the library's one-axis readings, with the inserted coordinate
  written out.
-/
import Idealize.ShloMosaic.PureOps.Ideal.Laws
import Idealize.ShloMosaic.PureOps.Reduce
import Idealize.ShloMosaic.Lib.ValueIdx

noncomputable section

open scoped BigOperators

namespace Cert.Fuzzy

open Idealize.ShloMosaic Idealize.ShloMosaic.ValueIdx

/-- The least over the feature axis, at (n, r): the fold of `min` from +∞ over the 64 features. -/
theorem least_feature (src : FVec Ideal ⟨3, ![256, 16, 64]⟩ .f32)
    (h : (⟨3, ![256, 16, 64]⟩ : Shape).Reduces [2] ⟨2, ![256, 16]⟩) (hφ : FKind.Formats .f32)
    (hacc : (0x7F800000#32 : BitVec 32) = 0x7F800000#32) (n : Fin 256) (r : Fin 16) :
    multiReduction .minimumf [2] ⟨2, ![256, 16]⟩ src 0x7F800000#32 h hφ hacc (ix2 n r)
      = (Finset.univ : Finset (Fin 64)).fold FloatOps.minimumf (FloatOps.ofBits (F := Ideal) .f32 0x7F800000#32)
          (fun j => src (ix3 n r j)) := by
  refine (multiReduction_minimumf_eq_fold src _ h hφ hacc (ix2 n r)).trans ?_
  refine (h.fold_filter_drop_single FloatOps.minimumf _ src (ix2 n r)).trans ?_
  show (Finset.univ : Finset (Fin 64)).fold FloatOps.minimumf _ (src ∘ h.lift (ix2 n r)) = _
  refine congrArg (fun f => (Finset.univ : Finset (Fin 64)).fold FloatOps.minimumf _ f) (funext fun j => ?_)
  exact congrArg src (funext fun a => Fin.ext (by match a with | ⟨0, _⟩ => rfl | ⟨1, _⟩ => rfl | ⟨2, _⟩ => rfl))

/-- The sum over the rule axis, at (r, o): the sum over the 256 rules. -/
theorem sum_rules (src : FVec Ideal ⟨3, ![256, 16, 64]⟩ .f32)
    (h : (⟨3, ![256, 16, 64]⟩ : Shape).Reduces [0] ⟨2, ![16, 64]⟩) (hφ : FKind.Formats .f32)
    (hacc : (0x00000000#32 : BitVec 32) = 0x00000000#32) (r : Fin 16) (o : Fin 64) :
    multiReduction .add [0] ⟨2, ![16, 64]⟩ src 0x00000000#32 h hφ hacc (ix2 r o) = ∑ n : Fin 256, src (ix3 n r o) := by
  refine (Ideal.multiReduction_add_single src _ h hφ hacc (ix2 r o)).trans ?_
  show ∑ n : Fin 256, src (h.lift (ix2 r o) n) = _
  refine Finset.sum_congr rfl fun n _ => ?_
  exact congrArg src (funext fun a => Fin.ext (by match a with | ⟨0, _⟩ => rfl | ⟨1, _⟩ => rfl | ⟨2, _⟩ => rfl))

end Cert.Fuzzy

end
-- ==== Proof.KernelAnte.lean ====
/-
  The antecedent side of the kernel body at an index, over the extended reals.

  From the row block X : [16, 64] and the transposed antecedent table P : [4, 256, 64] (plane k the k-th breakpoint)
  the body's first part forms the breakpoint columns, the two edges and the comparisons over [256, 16, 64]; its
  second part chooses among them and takes the least over the features. Each piece is read at (n, r, j) through its
  re-layings, and the strength table at (n, r, 0) as the fold of `min` over the features of the three-way choice.
-/
import proofs.«405340_j27702539059254_3_alg».proof.Proof.Gen.KernelIdeal.Skeleton
import proofs.«405340_j27702539059254_3_alg».proof.Proof.Spec
import proofs.«405340_j27702539059254_3_alg».proof.Proof.Layout
import proofs.«405340_j27702539059254_3_alg».proof.Proof.Reduce

noncomputable section

open scoped BigOperators

namespace Cert.Fuzzy

open Cert.KernelIdeal Cert.KernelIdeal.Gen Idealize.ShloMosaic Idealize.ShloMosaic.ValueIdx

/-! ## The antecedent side: breakpoint columns, the row block, the memberships -/

section Antecedent
variable (X : Vec Ideal S16x64 .f32) (P : Vec Ideal S4x256x64 .f32)

theorem pay2_eq : k0_pay2 P = P := shapeCast_self P _

/-- The first breakpoint's column (the body forms it in place), at (n, 0, j). -/
theorem col0_at (n : Fin 256) (u : Fin 1) (j : Fin 64) :
    shapeCast S256x1x64 (shapeCast S256x64 (extractStridedSlice S1x256x64 ![0, 0, 0] P slices_S4x256x64_o0_0_0_S1x256x64)
      shapeCasts_S1x256x64_S256x64) shapeCasts_S256x64_S256x1x64 (ix3 n u j) = P (ix3 (0 : Fin 4) n j) :=
  plane_column ![0, 0, 0] 0 rfl rfl rfl P _ _ _ n u j
theorem pay4_at (n : Fin 256) (u : Fin 1) (j : Fin 64) : k0_pay4 P (ix3 n u j) = P (ix3 (1 : Fin 4) n j) := by
  unfold k0_pay4; rw [pay2_eq]
  exact plane_column ![1, 0, 0] 1 rfl rfl rfl P _ _ _ n u j
theorem pay5_at (n : Fin 256) (u : Fin 1) (j : Fin 64) : k0_pay5 P (ix3 n u j) = P (ix3 (2 : Fin 4) n j) := by
  unfold k0_pay5; rw [pay2_eq]
  exact plane_column ![2, 0, 0] 2 rfl rfl rfl P _ _ _ n u j
theorem pay6_at (n : Fin 256) (u : Fin 1) (j : Fin 64) : k0_pay6 P (ix3 n u j) = P (ix3 (3 : Fin 4) n j) := by
  unfold k0_pay6; rw [pay2_eq]
  exact plane_column ![3, 0, 0] 3 rfl rfl rfl P _ _ _ n u j
theorem pay7_at (u : Fin 1) (r : Fin 16) (j : Fin 64) : k0_pay7 X (ix3 u r j) = X (ix2 r j) := by
  unfold k0_pay7
  exact lead_cast X _ u r j

/-- The falling edge (d − x)/(d − c + 1e-8) at (n, r, j). -/
theorem pay8_at (n : Fin 256) (r : Fin 16) (j : Fin 64) :
    k0_pay8 X P (ix3 n r j) = FloatOps.divf (FloatOps.subf (P (ix3 (3 : Fin 4) n j)) (X (ix2 r j)))
      (FloatOps.addf (FloatOps.subf (P (ix3 (3 : Fin 4) n j)) (P (ix3 (2 : Fin 4) n j))) tiny) := by
  unfold k0_pay8
  simp only [divf, subf, addf, broadcast, column_bcast, lead_bcast, pay5_at, pay6_at, pay7_at]

/-- The rising edge chosen strictly between a and b, else zero, at (n, r, j). -/
theorem pay9_at (n : Fin 256) (r : Fin 16) (j : Fin 64) :
    k0_pay9 X P (ix3 n r j) =
      Scalar.select (IntOp.andi (FloatOps.cmpf (F := Ideal) (φ := .f32) .olt (P (ix3 (0 : Fin 4) n j)) (X (ix2 r j)))
          (FloatOps.cmpf (F := Ideal) (φ := .f32) .olt (X (ix2 r j)) (P (ix3 (1 : Fin 4) n j))))
        (FloatOps.divf (FloatOps.subf (X (ix2 r j)) (P (ix3 (0 : Fin 4) n j)))
          (FloatOps.addf (FloatOps.subf (P (ix3 (1 : Fin 4) n j)) (P (ix3 (0 : Fin 4) n j))) tiny)) zero := by
  unfold k0_pay9
  simp only [pay2_eq, select, andi, cmpf, divf, subf, addf, broadcast, column_bcast, lead_bcast, pay4_at, pay7_at]
  rw [col0_at P n 0 j]

theorem pay10_at (n : Fin 256) (r : Fin 16) (j : Fin 64) :
    k0_pay10 X P (ix3 n r j) = FloatOps.cmpf (F := Ideal) (φ := .f32) .ole (P (ix3 (1 : Fin 4) n j)) (X (ix2 r j)) := by
  unfold k0_pay10
  simp only [cmpf, column_bcast, lead_bcast, pay4_at, pay7_at]
theorem pay11_at (n : Fin 256) (r : Fin 16) (j : Fin 64) : k0_pay11 X (ix3 n r j) = X (ix2 r j) := by
  unfold k0_pay11
  simp only [lead_bcast, pay7_at]
theorem pay12_at (n : Fin 256) (r : Fin 16) (j : Fin 64) : k0_pay12 P (ix3 n r j) = P (ix3 (2 : Fin 4) n j) := by
  unfold k0_pay12
  simp only [column_bcast, pay5_at]

end Antecedent

/-- The strength table with its kept unit axis, at (n, r, 0), from the pieces the body's first part hands on: the
    least over the features of the three-way choice. -/
theorem pay13_at (v13 v16 : FVec Ideal S256x1x64 .f32) (v17 : FVec Ideal S1x16x64 .f32) (v33 v42 : FVec Ideal S256x16x64 .f32)
    (v45 : IVec S256x16x64 1) (v46 v47 : FVec Ideal S256x16x64 .f32) (n : Fin 256) (r : Fin 16) (u : Fin 1) :
    k0_pay13 v13 v16 v17 v33 v42 v45 v46 v47 (ix3 n r u) =
      (Finset.univ : Finset (Fin 64)).fold FloatOps.minimumf top (fun j =>
        Scalar.select (IntOp.andi (FloatOps.cmpf (F := Ideal) (φ := .f32) .olt (v13 (ix3 n (0 : Fin 1) j)) (v17 (ix3 (0 : Fin 1) r j)))
            (FloatOps.cmpf (F := Ideal) (φ := .f32) .olt (v17 (ix3 (0 : Fin 1) r j)) (v16 (ix3 n (0 : Fin 1) j))))
          (v33 (ix3 n r j))
          (Scalar.select (IntOp.andi (v45 (ix3 n r j)) (FloatOps.cmpf (F := Ideal) (φ := .f32) .ole (v46 (ix3 n r j)) (v47 (ix3 n r j)))) one
            (v42 (ix3 n r j)))) := by
  unfold k0_pay13
  refine (keepdim_cast _ _ n r u).trans ?_
  refine (least_feature _ _ _ _ n r).trans ?_
  refine congrArg (fun f => (Finset.univ : Finset (Fin 64)).fold FloatOps.minimumf top f) (funext fun j => ?_)
  simp only [select, andi, cmpf, broadcast, column_bcast, lead_bcast]

end Cert.Fuzzy

end
-- ==== Proof.KernelCons.lean ====
/-
  The consequent side of the kernel body at an index, over the extended reals.

  From the transposed consequent table [4, 256, 64] (plane k the k-th breakpoint A, B, C, D) and the strength table
  w : [256, 16, 1] the body forms the numerator's three terms and the denominator over [256, 16, 64], sums both over
  the rules and stores the guarded quotient over three. Each term is read at (n, r, o) as the polynomial in
  w(n, r, 0) with coefficients from the table at (·, n, o), and the stored value at (r, o) as the quotient of the two
  sums over n.
-/
import proofs.«405340_j27702539059254_3_alg».proof.Proof.Gen.KernelIdeal.Skeleton
import proofs.«405340_j27702539059254_3_alg».proof.Proof.Spec
import proofs.«405340_j27702539059254_3_alg».proof.Proof.Layout
import proofs.«405340_j27702539059254_3_alg».proof.Proof.Reduce

noncomputable section

open scoped BigOperators

namespace Cert.Fuzzy

open Cert.KernelIdeal Cert.KernelIdeal.Gen Idealize.ShloMosaic Idealize.ShloMosaic.ValueIdx

/-! ## The consequent side -/

section Consequent
variable (v4 : FVec Ideal S4x256x64 .f32)

theorem pay3_eq (Q : Vec Ideal S4x256x64 .f32) : k0_pay3 Q = Q := shapeCast_self Q _
theorem pay14_at (n : Fin 256) (u : Fin 1) (o : Fin 64) : k0_pay14 v4 (ix3 n u o) = v4 (ix3 (0 : Fin 4) n o) := by
  unfold k0_pay14
  exact plane_column ![0, 0, 0] 0 rfl rfl rfl v4 _ _ _ n u o
theorem pay15_at (n : Fin 256) (u : Fin 1) (o : Fin 64) : k0_pay15 v4 (ix3 n u o) = v4 (ix3 (1 : Fin 4) n o) := by
  unfold k0_pay15
  exact plane_column ![1, 0, 0] 1 rfl rfl rfl v4 _ _ _ n u o
theorem pay16_at (n : Fin 256) (u : Fin 1) (o : Fin 64) : k0_pay16 v4 (ix3 n u o) = v4 (ix3 (2 : Fin 4) n o) := by
  unfold k0_pay16
  exact plane_column ![2, 0, 0] 2 rfl rfl rfl v4 _ _ _ n u o
theorem pay17_at (n : Fin 256) (u : Fin 1) (o : Fin 64) : k0_pay17 v4 (ix3 n u o) = v4 (ix3 (3 : Fin 4) n o) := by
  unfold k0_pay17
  exact plane_column ![3, 0, 0] 3 rfl rfl rfl v4 _ _ _ n u o

variable (v13 v16 : FVec Ideal S256x1x64 .f32) (v17 : FVec Ideal S1x16x64 .f32) (v33 v42 : FVec Ideal S256x16x64 .f32)
    (v45 : IVec S256x16x64 1) (v46 v47 : FVec Ideal S256x16x64 .f32)

/-- 3w(D² − A²)(1 − w) at (n, r, o), with w the strength table's entry at (n, r, 0). -/
theorem pay18_at (n : Fin 256) (r : Fin 16) (o : Fin 64) :
    k0_pay18 v4 v13 v16 v17 v33 v42 v45 v46 v47 (ix3 n r o) =
      FloatOps.mulf
        (FloatOps.mulf (FloatOps.mulf three (k0_pay13 v13 v16 v17 v33 v42 v45 v46 v47 (ix3 n r (0 : Fin 1))))
          (FloatOps.subf (FloatOps.mulf (v4 (ix3 (3 : Fin 4) n o)) (v4 (ix3 (3 : Fin 4) n o)))
            (FloatOps.mulf (v4 (ix3 (0 : Fin 4) n o)) (v4 (ix3 (0 : Fin 4) n o)))))
        (FloatOps.subf one (k0_pay13 v13 v16 v17 v33 v42 v45 v46 v47 (ix3 n r (0 : Fin 1)))) := by
  unfold k0_pay18
  simp only [mulf, subf, broadcast, keepdim_bcast, column_bcast, pay14_at, pay17_at]

/-- 3w²(CD − AB) at (n, r, o). -/
theorem pay19_at (n : Fin 256) (r : Fin 16) (o : Fin 64) :
    k0_pay19 v4 v13 v16 v17 v33 v42 v45 v46 v47 (ix3 n r o) =
      FloatOps.mulf
        (FloatOps.mulf three (FloatOps.mulf (k0_pay13 v13 v16 v17 v33 v42 v45 v46 v47 (ix3 n r (0 : Fin 1)))
          (k0_pay13 v13 v16 v17 v33 v42 v45 v46 v47 (ix3 n r (0 : Fin 1)))))
        (FloatOps.subf (FloatOps.mulf (v4 (ix3 (2 : Fin 4) n o)) (v4 (ix3 (3 : Fin 4) n o)))
          (FloatOps.mulf (v4 (ix3 (0 : Fin 4) n o)) (v4 (ix3 (1 : Fin 4) n o)))) := by
  unfold k0_pay19
  simp only [mulf, subf, broadcast, keepdim_bcast, column_bcast, pay14_at, pay15_at, pay16_at, pay17_at]

/-- w·(w·w)·(C − D + A − B) at (n, r, o): the third term but for its last factor. -/
theorem pay20_at (n : Fin 256) (r : Fin 16) (o : Fin 64) :
    k0_pay20 v4 v13 v16 v17 v33 v42 v45 v46 v47 (ix3 n r o) =
      FloatOps.mulf
        (FloatOps.mulf (k0_pay13 v13 v16 v17 v33 v42 v45 v46 v47 (ix3 n r (0 : Fin 1)))
          (FloatOps.mulf (k0_pay13 v13 v16 v17 v33 v42 v45 v46 v47 (ix3 n r (0 : Fin 1)))
            (k0_pay13 v13 v16 v17 v33 v42 v45 v46 v47 (ix3 n r (0 : Fin 1)))))
        (FloatOps.subf (FloatOps.addf (FloatOps.subf (v4 (ix3 (2 : Fin 4) n o)) (v4 (ix3 (3 : Fin 4) n o)))
          (v4 (ix3 (0 : Fin 4) n o))) (v4 (ix3 (1 : Fin 4) n o))) := by
  unfold k0_pay20
  simp only [mulf, subf, addf, broadcast, keepdim_bcast, column_bcast, pay14_at, pay15_at, pay16_at, pay17_at]

end Consequent

/-- The guarded quotient over three depends only on the two sums. -/
theorem guarded_congr {N N' D D' : R} (hN : N = N') (hD : D = D') :
    FloatOps.divf (Scalar.select (FloatOps.cmpf .one D zero) (FloatOps.divf N D) zero) three
      = FloatOps.divf (Scalar.select (FloatOps.cmpf .one D' zero) (FloatOps.divf N' D') zero) three := by
  rw [hN, hD]

/-- The stored value at (r, o) from the pieces the body's second part hands on: the two sums over the rules, the
    guarded quotient, over three. -/
theorem pay1_at (v61 : FVec Ideal S256x16x1 .f32) (v64 v67 v70 v73 : FVec Ideal S256x1x64 .f32)
    (v85 v94 v102 : FVec Ideal S256x16x64 .f32) (r : Fin 16) (o : Fin 64) :
    k0_pay1 v61 v64 v67 v70 v73 v85 v94 v102 (ix2 r o) =
      FloatOps.divf
        (Scalar.select
          (FloatOps.cmpf .one
            (∑ n : Fin 256, FloatOps.addf
              (FloatOps.addf
                (FloatOps.mulf (FloatOps.mulf two (v61 (ix3 n r (0 : Fin 1))))
                  (FloatOps.subf (v73 (ix3 n (0 : Fin 1) o)) (v64 (ix3 n (0 : Fin 1) o))))
                (FloatOps.mulf (FloatOps.mulf (v61 (ix3 n r (0 : Fin 1))) (v61 (ix3 n r (0 : Fin 1))))
                  (FloatOps.subf (FloatOps.subf (FloatOps.addf (v70 (ix3 n (0 : Fin 1) o)) (v64 (ix3 n (0 : Fin 1) o)))
                    (v73 (ix3 n (0 : Fin 1) o))) (v67 (ix3 n (0 : Fin 1) o)))))
              ulp)
            zero)
          (FloatOps.divf
            (∑ n : Fin 256, FloatOps.addf (FloatOps.addf (v85 (ix3 n r o)) (v94 (ix3 n r o)))
              (FloatOps.mulf (v102 (ix3 n r o))
                (FloatOps.addf (FloatOps.subf (FloatOps.subf (v70 (ix3 n (0 : Fin 1) o)) (v73 (ix3 n (0 : Fin 1) o)))
                  (v64 (ix3 n (0 : Fin 1) o))) (v67 (ix3 n (0 : Fin 1) o)))))
            (∑ n : Fin 256, FloatOps.addf
              (FloatOps.addf
                (FloatOps.mulf (FloatOps.mulf two (v61 (ix3 n r (0 : Fin 1))))
                  (FloatOps.subf (v73 (ix3 n (0 : Fin 1) o)) (v64 (ix3 n (0 : Fin 1) o))))
                (FloatOps.mulf (FloatOps.mulf (v61 (ix3 n r (0 : Fin 1))) (v61 (ix3 n r (0 : Fin 1))))
                  (FloatOps.subf (FloatOps.subf (FloatOps.addf (v70 (ix3 n (0 : Fin 1) o)) (v64 (ix3 n (0 : Fin 1) o)))
                    (v73 (ix3 n (0 : Fin 1) o))) (v67 (ix3 n (0 : Fin 1) o)))))
              ulp))
          zero)
        three := by
  unfold k0_pay1
  refine guarded_congr ?_ ?_
  · refine (sum_rules _ _ _ _ r o).trans (Finset.sum_congr rfl fun n _ => ?_)
    simp only [addf, mulf, subf, broadcast, keepdim_bcast, column_bcast]
  · refine (sum_rules _ _ _ _ r o).trans (Finset.sum_congr rfl fun n _ => ?_)
    simp only [addf, mulf, subf, broadcast, keepdim_bcast, column_bcast]

end Cert.Fuzzy

end
-- ==== Proof.KernelValue.lean ====
/-
  The kernel's result array as the specification's function of its arguments.

  At grid point t the pipeline hands the body rows 16t … 16t+15 of X, and the two transposed rule tables whole; the
  body's stored block at (r, o) is `outOf` of those (KernelAnte.lean, KernelCons.lean), the transposed tables at
  (k, n, j) are the argument tables at (n, j, k), and so the block point t writes back is rows 16t … 16t+15 of
  `G X An Co`. The 256 blocks tile the [4096, 64] result (row i is in block i / 16), so after the run the result is
  `G X An Co`, and the arguments are unchanged.
-/
import proofs.«405340_j27702539059254_3_alg».proof.Proof.KernelIdealBlocks
import proofs.«405340_j27702539059254_3_alg».proof.Proof.KernelAnte
import proofs.«405340_j27702539059254_3_alg».proof.Proof.KernelCons
import Idealize.ShloMosaic.Lib.StableHlo.Run

set_option maxRecDepth 16384

noncomputable section

open scoped BigOperators

namespace Cert.Fuzzy

open Cert.KernelIdeal Cert.KernelIdeal.Gen Idealize.ShloMosaic Idealize.ShloMosaic.TcCoe Idealize.SL.Sem
  Idealize.ShloMosaic.ValueIdx
open Idealize.ShloMosaic.Pipeline (Dat)

/-! ## The body's block, from the three input blocks -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- What the body leaves in its output block at (r, o): the guarded quotient of the rule sums, from the strengths of
    the block's row r against every rule and the consequents at output feature o. -/
theorem body_at (x0 : Vec Ideal S16x64 .f32) (x1 x2 : Vec Ideal S4x256x64 .f32) (r : Fin 16) (o : Fin 64) :
    out0_3 x0 x1 x2 (ix2 r o)
      = outOf (fun n => fire (fun j => x0 (ix2 r j)) (fun j k => x1 (ix3 k n j))) (fun n k => x2 (ix3 k n o)) := by
  unfold out0_3
  rw [View.canon_unit_zero zeros2]
  simp only [View.ld_unit_zero (S := S16x64) zeros2, View.ld_unit_zero (S := S4x256x64) zeros3]
  rw [pay1_at]
  simp only [pay18_at, pay19_at, pay20_at, pay13_at, pay14_at, pay15_at, pay16_at, pay17_at, pay3_eq, pay5_at, pay6_at,
    pay7_at, pay8_at, pay9_at, pay10_at, pay11_at, pay12_at, cube_comm]
  rfl

/-! ## The blocks as the region finds them -/

variable (m : (ℓ : Loc nD τ sig) → Buf (Elt Ideal) ℓ) (ρ : Dev nD → PrngReg)

/-- The two host transposes before the region: the antecedent table with its breakpoint axis in front. -/
theorem V_antes (c : Dev nD) :
    (V m c main_v0 : S4x256x64.Idx → Elt Ideal .f32)
      = transpose S4x256x64 [2, 0, 1] (m ((c : Thread nD τ).loc main_arg1)) transposes_S256x64x4_S4x256x64_2_0_1 := by
  dsimp only [Gen.V, Gen.hostOps0]; after_results
theorem V_cons (c : Dev nD) :
    (V m c main_v1 : S4x256x64.Idx → Elt Ideal .f32)
      = transpose S4x256x64 [2, 0, 1] (m ((c : Thread nD τ).loc main_arg2)) transposes_S256x64x4_S4x256x64_2_0_1 := by
  dsimp only [Gen.V, Gen.hostOps0]; after_results

/-- A [256, 64, 4] table with its last axis moved to the front, at (k, n, j), is the table at (n, j, k). -/
theorem front_axis (A : S256x64x4.Idx → Elt Ideal .f32) (h : S256x64x4.Transposes [2, 0, 1] S4x256x64)
    (k : Fin 4) (n : Fin 256) (j : Fin 64) : transpose S4x256x64 [2, 0, 1] A h (ix3 k n j) = A (ix3 n j k) :=
  transpose_apply [2, 0, 1] A h (ix3 k n j) (ix3 n j k) (fun b => match b with
    | ⟨0, _⟩ => rfl
    | ⟨1, _⟩ => rfl
    | ⟨2, _⟩ => rfl)

/-- The printed index maps over the grid: the row block and the output block move together along the rows and stay at
    column block 0; the two tables stay at block (0, 0, 0). -/
theorem idx_facts : ∀ t : Fin cfg0.N,
    win0_0.index t (0 : Fin 2) = win0_3.index t (0 : Fin 2) ∧ win0_0.index t (1 : Fin 2) = 0
    ∧ win0_3.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) ≤ 255 :=
  (by decide +kernel : ∀ t : Fin grid0.N, _)

/-- Every row block is some point's. -/
theorem idx_onto : ∀ q : Fin 256, ∃ t : Fin cfg0.N, win0_3.index t = ![q.val, 0] :=
  (by decide +kernel : ∀ q : Fin 256, ∃ t : Fin grid0.N, win0_3.index t = ![q.val, 0])

/-- WHAT POINT t WRITES BACK is block t of `G` of the three arguments. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Cert.KernelIdeal.ValueP.flushed3]
  obtain ⟨f0, f1, f2, g0, g1, g2, h0, h1, h2, f3⟩ := idx_facts t
  funext y
  obtain ⟨r, o, rfl⟩ : ∃ (r : Fin 16) (o : Fin 64), y = ix2 r o := ⟨y 0, y 1, eq_ix2 y⟩
  refine (body_at (iblk m c 0 t) (iblk m c 1 t) (iblk m c 2 t) r o).trans ?_
  -- the three blocks, read where the output block's index says
  have e0 : ∀ j : Fin 64, iblk m c 0 t (ix2 r j)
      = m ((c : Thread nD τ).loc main_arg0) (ix2 ⟨win0_3.index t (0 : Fin 2) * 16 + r.val, by omega⟩ j) := by
    intro j
    show V m c main_arg0 (((cfg0.win 0).blk t).view.emb (ix2 r j)) = _
    rw [V_main_arg0]
    refine congrArg _ (funext fun a => Fin.ext ?_)
    match a with
    | ⟨0, _⟩ => show win0_0.index t (0 : Fin 2) * 16 + 1 * r.val = win0_3.index t (0 : Fin 2) * 16 + r.val; omega
    | ⟨1, _⟩ => show win0_0.index t (1 : Fin 2) * 64 + 1 * j.val = j.val; omega
  have e1 : ∀ (n : Fin 256) (j : Fin 64) (k : Fin 4), iblk m c 1 t (ix3 k n j)
      = m ((c : Thread nD τ).loc main_arg1) (ix3 n j k) := by
    intro n j k
    show V m c main_v0 (((cfg0.win 1).blk t).view.emb (ix3 k n j)) = _
    rw [V_antes]
    refine Eq.trans (congrArg _ (funext fun a => Fin.ext ?_)) (front_axis _ _ k n j)
    match a with
    | ⟨0, _⟩ => show win0_1.index t (0 : Fin 3) * 4 + 1 * k.val = k.val; omega
    | ⟨1, _⟩ => show win0_1.index t (1 : Fin 3) * 256 + 1 * n.val = n.val; omega
    | ⟨2, _⟩ => show win0_1.index t (2 : Fin 3) * 64 + 1 * j.val = j.val; omega
  have e2 : ∀ (n : Fin 256) (k : Fin 4), iblk m c 2 t (ix3 k n o)
      = m ((c : Thread nD τ).loc main_arg2) (ix3 n o k) := by
    intro n k
    show V m c main_v1 (((cfg0.win 2).blk t).view.emb (ix3 k n o)) = _
    rw [V_cons]
    refine Eq.trans (congrArg _ (funext fun a => Fin.ext ?_)) (front_axis _ _ k n o)
    match a with
    | ⟨0, _⟩ => show win0_2.index t (0 : Fin 3) * 4 + 1 * k.val = k.val; omega
    | ⟨1, _⟩ => show win0_2.index t (1 : Fin 3) * 256 + 1 * n.val = n.val; omega
    | ⟨2, _⟩ => show win0_2.index t (2 : Fin 3) * 64 + 1 * o.val = o.val; omega
  simp only [e0, e1, e2]
  -- the array index under (r, o) of block t
  show _ = outAt _ _ _ ⟨win0_3.index t (0 : Fin 2) * 16 + 1 * r.val, _⟩ ⟨win0_3.index t (1 : Fin 2) * 64 + 1 * o.val, _⟩
  have q0 : (⟨win0_3.index t (0 : Fin 2) * 16 + 1 * r.val, by omega⟩ : Fin 4096)
      = ⟨win0_3.index t (0 : Fin 2) * 16 + r.val, by omega⟩ := Fin.ext (by show _ + 1 * r.val = _ + r.val; omega)
  have q1 : (⟨win0_3.index t (1 : Fin 2) * 64 + 1 * o.val, by omega⟩ : Fin 64) = o :=
    Fin.ext (by show win0_3.index t (1 : Fin 2) * 64 + 1 * o.val = o.val; omega)
  rw [q0, q1]
  rfl

/-- An index of the result is in point t's block iff each coordinate is in the block's range. -/
theorem mem_blk (t : Fin cfg0.N) (i : S4096x64.Idx) :
    i ∈ ((cfg0.win 3).blk t).view.set ↔ ∀ a : Fin 2, win0_3.index t a * S16x64.size a ≤ (i a).val
      ∧ (i a).val < win0_3.index t a * S16x64.size a + S16x64.size a := by
  show i ∈ ((View.whole main_v2).slice (win0_3.rect t)).set ↔ _
  rw [View.set_slice_whole, Rect.mem_set_unit]
  exact Iff.rfl

/-- The blocks tile the result: row i is in the block of point i / 16. -/
theorem covered (i : S4096x64.Idx) :
    ∃ t : Fin cfg0.N, (cfg0.win 3).flush t = true ∧ i ∈ ((cfg0.win 3).blk t).view.set := by
  have hi0 : (i 0).val < 4096 := (i 0).isLt
  have hi1 : (i 1).val < 64 := (i 1).isLt
  obtain ⟨t, ht⟩ := idx_onto ⟨(i 0).val / 16, by omega⟩
  have p0 : win0_3.index t (0 : Fin 2) = (i 0).val / 16 := congrFun ht 0
  have p1 : win0_3.index t (1 : Fin 2) = 0 := congrFun ht 1
  refine ⟨t, flush0_3 t, ?_⟩
  rw [mem_blk]
  intro a
  match a with
  | ⟨0, _⟩ => show win0_3.index t (0 : Fin 2) * 16 ≤ (i 0).val ∧ (i 0).val < win0_3.index t (0 : Fin 2) * 16 + 16; omega
  | ⟨1, _⟩ => show win0_3.index t (1 : Fin 2) * 64 ≤ (i 1).val ∧ (i 1).val < win0_3.index t (1 : Fin 2) * 64 + 64; omega

/-- THE RESULT ARRAY after the run. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run over the extended reals: it terminates with the result at `G` of the arguments, the arguments
    unchanged. -/
theorem kernel_run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.ValueP.run_blocks m ρ)

end Cert.Fuzzy

end
-- ==== Proof.RefAnte.lean ====
/-
  The antecedent side of the reference at an index, over the extended reals.

  The reference slices the four breakpoints out of the antecedent array An : [256, 64, 4] as [256, 1, 64] columns,
  broadcasts them and the input X : [4096, 64] to [256, 4096, 64], forms the trapezoid membership there and takes the
  least over the features. Read at an index: breakpoint k's column at (n, ·, j) is An (n, j, k) (the re-laying lemma
  of Layout.lean, which each generated stage unfolds to); the membership at
  (n, r, j) is `trap` of X (r, j) and An (n, j, ·); the strength at (n, r) is `fire` of row r and rule n. Every step is
  the generated read-at-an-index lemma of its operation; the host's reduction is read as a fold over the feature
  coordinate.
-/
import proofs.«405340_j27702539059254_3_alg».proof.Proof.Gen.ReferenceIdeal.Read
import proofs.«405340_j27702539059254_3_alg».proof.Proof.Spec
import proofs.«405340_j27702539059254_3_alg».proof.Proof.Layout
import Idealize.ShloMosaic.PureOps.Reduce

noncomputable section

open scoped BigOperators

namespace Cert.Fuzzy

open Cert.ReferenceIdeal Cert.ReferenceIdeal.Gen Cert.ReferenceIdeal.Read Idealize.ShloMosaic Idealize.ShloMosaic.ValueIdx

variable (X : (⟨S4096x64, .f32⟩ : BufTy).Contents (Elt Ideal)) (An : (⟨S256x64x4, .f32⟩ : BufTy).Contents (Elt Ideal))

/-! ## The breakpoint columns: slice k of the last axis, flattened, stood up as [256, 1, 64] -/

theorem ref_col0 (i : S256x1x64.Idx) :
    val_main_v2 (F := Ideal) An i = An (ix3 ⟨(i 0).val, (i 0).isLt⟩ ⟨(i 2).val, (i 2).isLt⟩ (0 : Fin 4)) :=
  slice_column ![0, 0, 0] 0 rfl rfl rfl An _ _ _ i
theorem ref_col1 (i : S256x1x64.Idx) :
    val_main_v5 (F := Ideal) An i = An (ix3 ⟨(i 0).val, (i 0).isLt⟩ ⟨(i 2).val, (i 2).isLt⟩ (1 : Fin 4)) :=
  slice_column ![0, 0, 1] 1 rfl rfl rfl An _ _ _ i
theorem ref_col2 (i : S256x1x64.Idx) :
    val_main_v8 (F := Ideal) An i = An (ix3 ⟨(i 0).val, (i 0).isLt⟩ ⟨(i 2).val, (i 2).isLt⟩ (2 : Fin 4)) :=
  slice_column ![0, 0, 2] 2 rfl rfl rfl An _ _ _ i
theorem ref_col3 (i : S256x1x64.Idx) :
    val_main_v11 (F := Ideal) An i = An (ix3 ⟨(i 0).val, (i 0).isLt⟩ ⟨(i 2).val, (i 2).isLt⟩ (3 : Fin 4)) :=
  slice_column ![0, 0, 3] 3 rfl rfl rfl An _ _ _ i

/-- The input given a leading unit axis, at (·, r, j), is X (r, j). -/
theorem ref_x (i : S1x4096x64.Idx) :
    val_main_v12 (F := Ideal) X i = X (ix2 ⟨(i 1).val, (i 1).isLt⟩ ⟨(i 2).val, (i 2).isLt⟩) := by
  rw [val_main_v12_apply]
  refine congrArg X (funext fun a => Fin.ext ?_)
  match a with
  | ⟨0, _⟩ => rfl
  | ⟨1, _⟩ => rfl

/-! ## The membership and the strength -/

/-- The membership array at (n, r, j): the trapezoid of rule n and feature j at X (r, j). -/
theorem ref_memb (i : S256x4096x64.Idx) :
    val_main_v56 (F := Ideal) X An i =
      trap (X (ix2 ⟨(i 1).val, (i 1).isLt⟩ ⟨(i 2).val, (i 2).isLt⟩))
        (An (ix3 ⟨(i 0).val, (i 0).isLt⟩ ⟨(i 2).val, (i 2).isLt⟩ (0 : Fin 4)))
        (An (ix3 ⟨(i 0).val, (i 0).isLt⟩ ⟨(i 2).val, (i 2).isLt⟩ (1 : Fin 4)))
        (An (ix3 ⟨(i 0).val, (i 0).isLt⟩ ⟨(i 2).val, (i 2).isLt⟩ (2 : Fin 4)))
        (An (ix3 ⟨(i 0).val, (i 0).isLt⟩ ⟨(i 2).val, (i 2).isLt⟩ (3 : Fin 4))) := by
  simp only [
    val_main_v13_apply, val_main_v14_apply, val_main_v15_apply, val_main_v16_apply, val_main_cst_apply, val_main_v17_apply,
    val_main_v18_apply, val_main_v19_apply, val_main_v20_apply, val_main_v21_apply, val_main_v22_apply, val_main_v23_apply,
    val_main_v24_apply, val_main_cst_0_apply, val_main_v25_apply, val_main_v26_apply, val_main_v27_apply, val_main_v28_apply,
    val_main_v29_apply, val_main_v30_apply, val_main_v31_apply, val_main_cst_1_apply, val_main_v32_apply, val_main_v33_apply,
    val_main_v34_apply, val_main_v35_apply, val_main_v36_apply, val_main_v37_apply, val_main_v38_apply, val_main_v39_apply,
    val_main_v40_apply, val_main_v41_apply, val_main_v42_apply, val_main_v43_apply, val_main_v44_apply, val_main_v45_apply,
    val_main_v46_apply, val_main_v47_apply, val_main_cst_2_apply, val_main_call1_v0_apply, val_main_call1_v1_apply, val_main_v48_apply,
    val_main_v49_apply, val_main_v50_apply, val_main_v51_apply, val_main_v52_apply, val_main_v53_apply, val_main_v54_apply,
    val_main_v55_apply, val_main_v56_apply,
    ref_col0, ref_col1, ref_col2, ref_col3, ref_x, hostDivf_eq]
  rfl

/-- The strength table at (n, r): the least membership over the features, from +∞. -/
theorem ref_fire (i : S256x4096.Idx) :
    val_main_v57 (F := Ideal) X An i =
      fire (fun j => X (ix2 ⟨(i 1).val, (i 1).isLt⟩ j)) (fun j k => An (ix3 ⟨(i 0).val, (i 0).isLt⟩ j k)) := by
  have hR : S256x4096x64.Reduces [2] S256x4096 := by decide
  have e := Host.reduce_eq_fold_single (FloatOps.minimumf (F := Ideal) (φ := .f32)) (val_main_v56 (F := Ideal) X An) (val_main_cst_3 (F := Ideal))
    reducesTo_S256x4096x64_S256x4096_d2 hR h_S_ i
  unfold val_main_v57
  refine e.trans ?_
  unfold fire
  refine congrArg (fun f => (Finset.univ : Finset (Fin 64)).fold FloatOps.minimumf top f) (funext fun j => ?_)
  refine (ref_memb X An _).trans ?_
  rfl

end Cert.Fuzzy

end
-- ==== Proof.RefCons.lean ====
/-
  The consequent side of the reference at an index, and the reference's result as the specification.

  The reference transposes the strength table to [4096, 256], gives it a trailing unit axis, slices the four consequent
  breakpoints out of Co : [256, 64, 4] as [1, 256, 64], and forms the numerator and the denominator over
  [4096, 256, 64]; it sums both over the rule axis from zero, takes the guarded quotient and divides by three. Read at
  an index: the strength at (r, n, ·) is `fire` of row r and rule n, breakpoint k at (·, n, o) is Co (n, o, k), the
  two arrays at (r, n, o) are `num` and `den` of those, and a sum from the zero word is the sum. So the result array is
  `G` of the three arguments.
-/
import proofs.«405340_j27702539059254_3_alg».proof.Proof.RefAnte

noncomputable section

open scoped BigOperators

namespace Cert.Fuzzy

open Cert.ReferenceIdeal Cert.ReferenceIdeal.Gen Cert.ReferenceIdeal.Read Idealize.ShloMosaic Idealize.ShloMosaic.ValueIdx

variable (X : (⟨S4096x64, .f32⟩ : BufTy).Contents (Elt Ideal)) (An Co : (⟨S256x64x4, .f32⟩ : BufTy).Contents (Elt Ideal))

/-- The strength table transposed and given a trailing unit axis, at (r, n, ·). -/
theorem ref_w (i : S4096x256x1.Idx) :
    val_main_v59 (F := Ideal) X An i =
      fire (fun j => X (ix2 ⟨(i 0).val, (i 0).isLt⟩ j)) (fun j k => An (ix3 ⟨(i 1).val, (i 1).isLt⟩ j k)) := by
  rw [val_main_v59_apply, val_main_v58_apply, ref_fire]

/-! ## The consequent breakpoints: slice k of the last axis, flattened, given a leading unit axis -/

theorem ref_ccol0 (i : S1x256x64.Idx) :
    val_main_v62 (F := Ideal) Co i = Co (ix3 ⟨(i 1).val, (i 1).isLt⟩ ⟨(i 2).val, (i 2).isLt⟩ (0 : Fin 4)) :=
  slice_plane ![0, 0, 0] 0 rfl rfl rfl Co _ _ _ i
theorem ref_ccol1 (i : S1x256x64.Idx) :
    val_main_v65 (F := Ideal) Co i = Co (ix3 ⟨(i 1).val, (i 1).isLt⟩ ⟨(i 2).val, (i 2).isLt⟩ (1 : Fin 4)) :=
  slice_plane ![0, 0, 1] 1 rfl rfl rfl Co _ _ _ i
theorem ref_ccol2 (i : S1x256x64.Idx) :
    val_main_v68 (F := Ideal) Co i = Co (ix3 ⟨(i 1).val, (i 1).isLt⟩ ⟨(i 2).val, (i 2).isLt⟩ (2 : Fin 4)) :=
  slice_plane ![0, 0, 2] 2 rfl rfl rfl Co _ _ _ i
theorem ref_ccol3 (i : S1x256x64.Idx) :
    val_main_v71 (F := Ideal) Co i = Co (ix3 ⟨(i 1).val, (i 1).isLt⟩ ⟨(i 2).val, (i 2).isLt⟩ (3 : Fin 4)) :=
  slice_plane ![0, 0, 3] 3 rfl rfl rfl Co _ _ _ i

/-! ## The numerator and the denominator at (r, n, o) -/

theorem ref_num (i : S4096x256x64.Idx) :
    val_main_v107 (F := Ideal) X An Co i =
      num (fire (fun j => X (ix2 ⟨(i 0).val, (i 0).isLt⟩ j)) (fun j k => An (ix3 ⟨(i 1).val, (i 1).isLt⟩ j k)))
        (Co (ix3 ⟨(i 1).val, (i 1).isLt⟩ ⟨(i 2).val, (i 2).isLt⟩ (0 : Fin 4)))
        (Co (ix3 ⟨(i 1).val, (i 1).isLt⟩ ⟨(i 2).val, (i 2).isLt⟩ (1 : Fin 4)))
        (Co (ix3 ⟨(i 1).val, (i 1).isLt⟩ ⟨(i 2).val, (i 2).isLt⟩ (2 : Fin 4)))
        (Co (ix3 ⟨(i 1).val, (i 1).isLt⟩ ⟨(i 2).val, (i 2).isLt⟩ (3 : Fin 4))) := by
  rw [val_main_v107_apply, val_main_v106_apply, val_main_v105_apply, val_main_v83_apply, val_main_v92_apply,
    val_main_v100_apply, val_main_v79_apply,
    val_main_v77_apply, val_main_v73_apply, val_main_v72_apply, val_main_cst_4_apply,
    val_main_v78_apply, val_main_v76_apply, val_main_v74_apply, val_main_v75_apply,
    val_main_v82_apply, val_main_v81_apply, val_main_v80_apply, val_main_cst_5_apply,
    val_main_v90_apply, val_main_v86_apply, val_main_v85_apply, val_main_cst_6_apply, val_main_v84_apply,
    val_main_v91_apply, val_main_v89_apply, val_main_v87_apply, val_main_v88_apply,
    val_main_v98_apply, val_main_v94_apply, val_main_v93_apply,
    val_main_v99_apply, val_main_v97_apply, val_main_v96_apply, val_main_v95_apply,
    val_main_v104_apply, val_main_v103_apply, val_main_v102_apply, val_main_v101_apply]
  repeat rw [ref_w]
  repeat rw [ref_ccol0]
  repeat rw [ref_ccol1]
  repeat rw [ref_ccol2]
  repeat rw [ref_ccol3]
  rfl

theorem ref_den (i : S4096x256x64.Idx) :
    val_main_v123 (F := Ideal) X An Co i =
      den (fire (fun j => X (ix2 ⟨(i 0).val, (i 0).isLt⟩ j)) (fun j k => An (ix3 ⟨(i 1).val, (i 1).isLt⟩ j k)))
        (Co (ix3 ⟨(i 1).val, (i 1).isLt⟩ ⟨(i 2).val, (i 2).isLt⟩ (0 : Fin 4)))
        (Co (ix3 ⟨(i 1).val, (i 1).isLt⟩ ⟨(i 2).val, (i 2).isLt⟩ (1 : Fin 4)))
        (Co (ix3 ⟨(i 1).val, (i 1).isLt⟩ ⟨(i 2).val, (i 2).isLt⟩ (2 : Fin 4)))
        (Co (ix3 ⟨(i 1).val, (i 1).isLt⟩ ⟨(i 2).val, (i 2).isLt⟩ (3 : Fin 4))) := by
  rw [val_main_v123_apply, val_main_v121_apply, val_main_v113_apply, val_main_v120_apply,
    val_main_v111_apply, val_main_v109_apply, val_main_v108_apply, val_main_cst_7_apply,
    val_main_v112_apply, val_main_v110_apply,
    val_main_v118_apply, val_main_v114_apply,
    val_main_v119_apply, val_main_v117_apply, val_main_v116_apply, val_main_v115_apply,
    val_main_v122_apply, val_main_cst_8_apply]
  repeat rw [ref_w]
  repeat rw [ref_ccol0]
  repeat rw [ref_ccol1]
  repeat rw [ref_ccol2]
  repeat rw [ref_ccol3]
  rfl

/-! ## The result -/

/-- The reference's result array is the specification's function of the three arguments. -/
theorem ref_eq : val_main_v131 (F := Ideal) X An Co = G X An Co := by
  funext i
  rw [val_main_v131_apply, val_main_v129_apply, val_main_v127_apply, val_main_v128_apply, val_main_v124_apply,
    val_main_v125_apply, val_main_v130_apply, val_main_cst_13_apply, val_main_v126_apply, val_main_cst_11_apply,
    val_main_call3_v1_apply, val_main_call3_v0_apply, val_main_cst_12_apply, val_main_cst_9_apply,
    val_main_cst_10_apply]
  simp only [ref_num, ref_den, hostDivf_eq, cmpf_une_eq, zero_add_sum]
  rfl

end Cert.Fuzzy

end
-- ==== Proof.lean ====
/-
  A fuzzy rule base evaluated by a tiled kernel and by a plain array program compute ONE function over the extended reals.

  Both programs take inputs X : [4096, 64], antecedent trapezoids An : [256, 64, 4] and consequent trapezoids
  Co : [256, 64, 4], and return [4096, 64]: for row r and output feature o,

      out(r, o) = ( Σ_n num(w(r,n), Co(n,o,·)) / Σ_n den(w(r,n), Co(n,o,·))  where the denominator sum ≠ 0, else 0 ) / 3,
      w(r, n)   = min over the 64 features j of the membership of X(r, j) in the trapezoid An(n, j, ·),

  the function `Cert.Fuzzy.G` (Proof/Spec.lean). The kernel works on 16 rows at a time with the breakpoint axis of both
  tables moved to the front, laid out as [rules, rows, features]; the reference works on all rows at once, laid out as
  [rows, rules, features] after a transpose of the strengths. The two differ only in these arrangements, in the
  order of the factors of w³, and in how "not equal" and the quotient are spelt; on the extended reals a sum and a
  least element do not depend on the arrangement, a product commutes, and the spellings denote one operation, so
  no hypothesis on the inputs is used.

  The kernel's result is `G` of the arguments by Proof/KernelValue.lean (the body at an element: KernelAnte.lean,
  KernelCons.lean, over the re-layings of Layout.lean and the reductions of Reduce.lean); the reference's by
  Proof/RefCons.lean (over RefAnte.lean). The two idealized runs therefore end with equal results. The three frames
  are the generated frame certificates (the reference's is its generated run with the result dropped), and the
  idealization rewrote nothing, so `preserves` has nothing to state.
-/
import proofs.«405340_j27702539059254_3_alg».proof.Defs
import proofs.«405340_j27702539059254_3_alg».proof.Proof.Gen.Kernel
import proofs.«405340_j27702539059254_3_alg».proof.Proof.Gen.Kernel.Skeleton
import proofs.«405340_j27702539059254_3_alg».proof.Proof.Gen.Kernel.Launch
import proofs.«405340_j27702539059254_3_alg».proof.Proof.Gen.Kernel.Points
import proofs.«405340_j27702539059254_3_alg».proof.Proof.Gen.Kernel.Frame
import proofs.«405340_j27702539059254_3_alg».proof.Proof.Gen.KernelIdeal
import proofs.«405340_j27702539059254_3_alg».proof.Proof.Gen.KernelIdeal.Skeleton
import proofs.«405340_j27702539059254_3_alg».proof.Proof.Gen.KernelIdeal.Launch
import proofs.«405340_j27702539059254_3_alg».proof.Proof.Gen.KernelIdeal.Points
import proofs.«405340_j27702539059254_3_alg».proof.Proof.Gen.KernelIdeal.Frame
import proofs.«405340_j27702539059254_3_alg».proof.Proof.Gen.ReferenceIdeal
import proofs.«405340_j27702539059254_3_alg».proof.Proof.Gen.Pre_finite_inputs
import proofs.«405340_j27702539059254_3_alg».proof.Proof.Gen.ReferenceIdeal.Run
import proofs.«405340_j27702539059254_3_alg».proof.Proof.Gen.ReferenceIdeal.Read
import proofs.«405340_j27702539059254_3_alg».proof.Proof.KernelValue
import proofs.«405340_j27702539059254_3_alg».proof.Proof.RefCons
import Idealize.ShloMosaic.Adequacy
import Idealize.ShloMosaic.Init

noncomputable section

namespace Cert.Proof

open Idealize.ShloMosaic Idealize.SL.Sem

/-- The word-level kernel terminates without a fault and leaves its arguments unchanged. -/
theorem frame_kernel : @Cert.frame_Kernel Cert.Kernel.Gen.facts Cert.Pre_finite_inputs.Gen.facts :=
  fun m ρ _ => Cert.Kernel.Gen.frame m ρ

/-- So does the kernel read over the extended reals. -/
theorem frame_kernelIdeal : @Cert.frame_KernelIdeal Cert.KernelIdeal.Gen.facts Cert.Pre_finite_inputs.Gen.facts :=
  fun m ρ _ => Cert.KernelIdeal.Gen.frame m ρ

/-- And the reference: its run, with the result dropped. -/
theorem frame_referenceIdeal :
    @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on the three arguments both programs end with the result array `G` of the arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Fuzzy.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)),
    Cert.Fuzzy.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v131_eq, Cert.Fuzzy.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
